-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x64 .f32) (main_arg4 : FVec F S64 .f32) (main_arg5 : FVec F S64x32 .f32) (main_arg6 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S5000x128 : Shape := ⟨2, ![5000, 128]⟩
abbrev S5000x64 : Shape := ⟨2, ![5000, 64]⟩
abbrev S3200000x64 : Shape := ⟨2, ![3200000, 64]⟩
abbrev S100000x1 : Shape := ⟨2, ![100000, 1]⟩
abbrev S1x64 : Shape := ⟨2, ![1, 64]⟩
abbrev S5000x1 : Shape := ⟨2, ![5000, 1]⟩
abbrev S100000x32 : Shape := ⟨2, ![100000, 32]⟩
abbrev S5000x32 : Shape := ⟨2, ![5000, 32]⟩
abbrev S3200000x32 : Shape := ⟨2, ![3200000, 32]⟩
abbrev S1x32 : Shape := ⟨2, ![1, 32]⟩

abbrev nBuf : Space → Nat
  | .hbm => 88
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .f32⟩
  | .hbm, ⟨12, _⟩ => ⟨S100000, .f32⟩
  | .hbm, ⟨13, _⟩ => ⟨S3200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000, .f32⟩
  | .hbm, ⟨37, _⟩ => ⟨S3200000, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000, .f32⟩
  | .hbm, ⟨47, _⟩ => ⟨S3200000, .f32⟩
  | .hbm, ⟨48, _⟩ => ⟨S100000x64, .f32⟩
  | .hbm, ⟨49, _⟩ => ⟨S3200000x1, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x64, .f32⟩
  | .hbm, ⟨59, _⟩ => ⟨S3200000x64, .f32⟩
  | .hbm, ⟨60, _⟩ => ⟨S3200000x64, .f32⟩
  | .hbm, ⟨61, _⟩ => ⟨S_, .f32⟩
  | .hbm, ⟨62, _⟩ => ⟨S100000x64, .f32⟩
  | .hbm, ⟨63, _⟩ => ⟨S3200000x1, .i32⟩
  | .hbm, ⟨64, _⟩ => ⟨S100000x64, .f32⟩
  | .hbm, ⟨65, _⟩ => ⟨S100000x1, .f32⟩
  | .hbm, ⟨66, _⟩ => ⟨S1x64, .f32⟩
  | .hbm, ⟨67, _⟩ => ⟨S100000x64, .f32⟩
  | .hbm, ⟨68, _⟩ => ⟨S100000x32, .f32⟩
  | .hbm, ⟨69, _⟩ => ⟨S3200000x1, .f32⟩
  | .hbm, ⟨70, _⟩ => ⟨S_, .i32⟩
  | .hbm, ⟨71, _⟩ => ⟨S3200000, .i32⟩
  | .hbm, ⟨72, _⟩ => ⟨S3200000, .i1⟩
  | .hbm, ⟨73, _⟩ => ⟨S_, .i32⟩
  | .hbm, ⟨74, _⟩ => ⟨S3200000, .i32⟩
  | .hbm, ⟨75, _⟩ => ⟨S3200000, .i32⟩
  | .hbm, ⟨76, _⟩ => ⟨S3200000, .i32⟩
  | .hbm, ⟨77, _⟩ => ⟨S3200000x1, .i32⟩
  | .hbm, ⟨78, _⟩ => ⟨S3200000x32, .f32⟩
  | .hbm, ⟨79, _⟩ => ⟨S3200000x32, .f32⟩
  | .hbm, ⟨80, _⟩ => ⟨S3200000x32, .f32⟩
  | .hbm, ⟨81, _⟩ => ⟨S_, .f32⟩
  | .hbm, ⟨82, _⟩ => ⟨S100000x32, .f32⟩
  | .hbm, ⟨83, _⟩ => ⟨S3200000x1, .i32⟩
  | .hbm, ⟨84, _⟩ => ⟨S100000x32, .f32⟩
  | .hbm, ⟨85, _⟩ => ⟨S100000x1, .f32⟩
  | .hbm, ⟨86, _⟩ => ⟨S1x32, .f32⟩
  | .hbm, ⟨87, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x1, .f32⟩
  | .local _ .vmem, ⟨24, _⟩ => ⟨S5000x1, .f32⟩
  | .local _ .vmem, ⟨25, _⟩ => ⟨S1x32, .f32⟩
  | .local _ .vmem, ⟨26, _⟩ => ⟨S5000x32, .f32⟩
  | .local _ .vmem, ⟨27, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S5000x1_S5000x32 : S5000x1.Broadcasts S5000x32
  broadcasts_S1x32_S5000x32 : S1x32.Broadcasts S5000x32
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x128_S128x64_S5000x64_1_0_0_1_n_n_wf : DotDims.WF S5000x128 S128x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x32_S5000x32_1_0_0_1_n_n_wf : DotDims.WF S5000x64 S64x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x32.size a ≤ S100000x32.size a
  hwx3_4 : ∀ i : grid3.Coords, EltTy.bits .f32 = 32 ∨ (Rect.block (s := S100000x32) S5000x32.size (cc3_transform_4 i) (hinb3_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S5000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x3200000 : Shape := ⟨2, ![1, 3200000]⟩
abbrev S100000x64 : Shape := ⟨2, ![100000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x32 : Shape := ⟨2, ![100000, 32]⟩
abbrev S3200000x32 : Shape := ⟨2, ![3200000, 32]⟩
abbrev S1x32 : Shape := ⟨2, ![1, 32]⟩

abbrev nBuf : Space → Nat
  | .hbm => 138
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S128x64, .f32⟩
  | 4 => ⟨S64, .f32⟩
  | 5 => ⟨S64x32, .f32⟩
  | 6 => ⟨S32, .f32⟩
  | 7 => ⟨S1x3200000, .i32⟩
  | 8 => ⟨S3200000, .i32⟩
  | 9 => ⟨S1x3200000, .i32⟩
  | 10 => ⟨S3200000, .i32⟩
  | 11 => ⟨S100000x64, .f32⟩
  | 12 => ⟨S_, .f32⟩
  | 13 => ⟨S100000, .f32⟩
  | 14 => ⟨S3200000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3200000, .i32⟩
  | 31 => ⟨S3200000, .i1⟩
  | 32 => ⟨S_, .i32⟩
  | 33 => ⟨S3200000, .i32⟩
  | 34 => ⟨S3200000, .i32⟩
  | 35 => ⟨S3200000, .i32⟩
  | 36 => ⟨S3200000x1, .i32⟩
  | 37 => ⟨S3200000, .f32⟩
  | 38 => ⟨S3200000, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000, .f32⟩
  | 48 => ⟨S3200000, .f32⟩
  | 49 => ⟨S3200000x1, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S3200000x64, .f32⟩
  | 59 => ⟨S3200000x64, .f32⟩
  | 60 => ⟨S3200000x64, .f32⟩
  | 61 => ⟨S_, .f32⟩
  | 62 => ⟨S100000x64, .f32⟩
  | 63 => ⟨S3200000x1, .i32⟩
  | 64 => ⟨S100000x64, .f32⟩
  | 65 => ⟨S100000, .f32⟩
  | 66 => ⟨S100000x1, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x32, .f32⟩
  | 77 => ⟨S_, .f32⟩
  | 78 => ⟨S100000, .f32⟩
  | 79 => ⟨S3200000x1, .i32⟩
  | 80 => ⟨S100000, .f32⟩
  | 81 => ⟨S_, .f32⟩
  | 82 => ⟨S100000, .f32⟩
  | 83 => ⟨S100000, .f32⟩
  | 84 => ⟨S_, .f32⟩
  | 85 => ⟨S100000, .f32⟩
  | 86 => ⟨S100000, .i1⟩
  | 87 => ⟨S_, .f32⟩
  | 88 => ⟨S100000, .f32⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000, .f32⟩
  | 103 => ⟨S3200000, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000, .f32⟩
  | 113 => ⟨S3200000, .f32⟩
  | 114 => ⟨S3200000x1, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000x32, .f32⟩
  | 124 => ⟨S3200000x32, .f32⟩
  | 125 => ⟨S3200000x32, .f32⟩
  | 126 => ⟨S_, .f32⟩
  | 127 => ⟨S100000x32, .f32⟩
  | _ => ⟨S100000x128, .f32⟩

abbrev hbmTy0_1 (i : Nat) : BufTy := match i % 128 with
  | 0 => ⟨S3200000x1, .i32⟩
  | 1 => ⟨S100000x32, .f32⟩
  | 2 => ⟨S100000, .f32⟩
  | 3 => ⟨S100000x1, .f32⟩
  | 4 => ⟨S100000x32, .f32⟩
  | 5 => ⟨S100000x32, .f32⟩
  | 6 => ⟨S100000x32, .f32⟩
  | 7 => ⟨S1x32, .f32⟩
  | 8 => ⟨S100000x32, .f32⟩
  | 9 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_call2_v0 : Ref sig .tc := ⟨.hbm, 91, rfl⟩
abbrev main_call2_v1 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_c_18 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_19 : Ref sig .tc := ⟨.hbm, 115, rfl⟩
abbrev main_v81 : Ref sig .tc := ⟨.hbm, 116, rfl⟩
abbrev main_v82 : Ref sig .tc := ⟨.hbm, 117, rfl⟩
abbrev main_c_20 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_21 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

class Facts : Prop extends Facts₀ where

variable [Facts]
-- ==== Proof.Spec.lean ====
/-
  The graph convolution's two layers as whole-array functions over the extended reals, index by index.

  One layer is  out = agg + (dinv · dinv) · h + b  with  h = x · W  (a dense product, row i against column j) and
  agg the neighbours' weighted sum; the first layer ends in max(·, 0). The kernel computes h and the combine in
  row blocks of 5000; here each is ONE function of whole arrays: `dense1`, `dense2` (entry (i, j) is the sum over k of
  x (i, k) · W (k, j)) and `combine1`, `combine2` (entry (i, j) reads agg and h at (i, j), the normaliser column at
  (i, 0) and the bias row at (0, j)). The neighbours' sum is computed by the same host operations in the kernel's
  program and in the reference, and enters here as an argument.
-/
import proofs.«177061_j71674414235956_1_alg».proof.KernelIdeal
import Idealize.ShloMosaic.PureOps.Ideal.Laws

noncomputable section

namespace Cert.KernelIdeal.Gcn

open Cert.KernelIdeal Idealize.ShloMosaic

/-! ## Index bookkeeping: which entries of the operands entry (i, j) of a result reads -/

/-- Entry (i, k) of the first layer's input, for entry (i, j) of its product. -/
abbrev xAt1 (i : S100000x64.Idx) (k : Fin 128) : S100000x128.Idx := fun a => match a with
  | ⟨0, _⟩ => ⟨(i 0).val, (i 0).isLt⟩
  | ⟨1, _⟩ => ⟨k.val, k.isLt⟩
/-- Entry (k, j) of the first layer's weights. -/
abbrev wAt1 (i : S100000x64.Idx) (k : Fin 128) : S128x64.Idx := fun a => match a with
  | ⟨0, _⟩ => ⟨k.val, k.isLt⟩
  | ⟨1, _⟩ => ⟨(i 1).val, (i 1).isLt⟩
/-- Entry (i, k) of the second layer's input. -/
abbrev xAt2 (i : S100000x32.Idx) (k : Fin 64) : S100000x64.Idx := fun a => match a with
  | ⟨0, _⟩ => ⟨(i 0).val, (i 0).isLt⟩
  | ⟨1, _⟩ => ⟨k.val, k.isLt⟩
/-- Entry (k, j) of the second layer's weights. -/
abbrev wAt2 (i : S100000x32.Idx) (k : Fin 64) : S64x32.Idx := fun a => match a with
  | ⟨0, _⟩ => ⟨k.val, k.isLt⟩
  | ⟨1, _⟩ => ⟨(i 1).val, (i 1).isLt⟩
/-- Row i of the normaliser column, for entry (i, j) of the first layer. -/
abbrev colAt1 (i : S100000x64.Idx) : S100000x1.Idx := fun a => match a with
  | ⟨0, _⟩ => ⟨(i 0).val, (i 0).isLt⟩
  | ⟨1, _⟩ => ⟨0, Nat.one_pos⟩
/-- Column j of the bias row, for entry (i, j) of the first layer. -/
abbrev biasAt1 (i : S100000x64.Idx) : S1x64.Idx := fun a => match a with
  | ⟨0, _⟩ => ⟨0, Nat.one_pos⟩
  | ⟨1, _⟩ => ⟨(i 1).val, (i 1).isLt⟩
/-- Row i of the normaliser column, for entry (i, j) of the second layer. -/
abbrev colAt2 (i : S100000x32.Idx) : S100000x1.Idx := fun a => match a with
  | ⟨0, _⟩ => ⟨(i 0).val, (i 0).isLt⟩
  | ⟨1, _⟩ => ⟨0, Nat.one_pos⟩
/-- Column j of the bias row, for entry (i, j) of the second layer. -/
abbrev biasAt2 (i : S100000x32.Idx) : S1x32.Idx := fun a => match a with
  | ⟨0, _⟩ => ⟨0, Nat.one_pos⟩
  | ⟨1, _⟩ => ⟨(i 1).val, (i 1).isLt⟩

/-! ## The layers' functions -/

/-- The first layer's dense product: entry (i, j) is the sum over k of x (i, k) · W (k, j). -/
def dense1 (x : (⟨S100000x128, .f32⟩ : BufTy).Contents (Elt Ideal)) (w : (⟨S128x64, .f32⟩ : BufTy).Contents (Elt Ideal)) :
    (⟨S100000x64, .f32⟩ : BufTy).Contents (Elt Ideal) :=
  fun i => ∑ k : Fin 128, x (xAt1 i k) * w (wAt1 i k)

/-- The second layer's dense product. -/
def dense2 (x : (⟨S100000x64, .f32⟩ : BufTy).Contents (Elt Ideal)) (w : (⟨S64x32, .f32⟩ : BufTy).Contents (Elt Ideal)) :
    (⟨S100000x32, .f32⟩ : BufTy).Contents (Elt Ideal) :=
  fun i => ∑ k : Fin 64, x (xAt2 i k) * w (wAt2 i k)

/-- The first layer's combine: max((agg + (d · d) · h) + b, 0), d the normaliser of the entry's row, b the bias of its column. -/
def combine1 (agg h : (⟨S100000x64, .f32⟩ : BufTy).Contents (Elt Ideal)) (d : (⟨S100000x1, .f32⟩ : BufTy).Contents (Elt Ideal))
    (b : (⟨S1x64, .f32⟩ : BufTy).Contents (Elt Ideal)) : (⟨S100000x64, .f32⟩ : BufTy).Contents (Elt Ideal) :=
  fun i => FloatOps.maximumf (F := Ideal) (φ := .f32)
    (FloatOps.addf (F := Ideal) (φ := .f32) (FloatOps.addf (F := Ideal) (φ := .f32) (agg i)
      (FloatOps.mulf (F := Ideal) (φ := .f32) (FloatOps.mulf (F := Ideal) (φ := .f32) (d (colAt1 i)) (d (colAt1 i))) (h i))) (b (biasAt1 i)))
    (FloatOps.ofBits (F := Ideal) .f32 0x00000000#32)

/-- The second layer's combine: (agg + (d · d) · h) + b. -/
def combine2 (agg h : (⟨S100000x32, .f32⟩ : BufTy).Contents (Elt Ideal)) (d : (⟨S100000x1, .f32⟩ : BufTy).Contents (Elt Ideal))
    (b : (⟨S1x32, .f32⟩ : BufTy).Contents (Elt Ideal)) : (⟨S100000x32, .f32⟩ : BufTy).Contents (Elt Ideal) :=
  fun i => FloatOps.addf (F := Ideal) (φ := .f32) (FloatOps.addf (F := Ideal) (φ := .f32) (agg i)
    (FloatOps.mulf (F := Ideal) (φ := .f32) (FloatOps.mulf (F := Ideal) (φ := .f32) (d (colAt2 i)) (d (colAt2 i))) (h i))) (b (biasAt2 i))

end Cert.KernelIdeal.Gcn

end
-- ==== Proof.Bridge.lean ====
/-
  The neighbours' weighted sum of a layer, as a function of that layer's dense product H.

  Both programs compute, on the host and by the same operations, the degree normaliser dinv and the edge weights
  norm from the edge list and the edge attributes, gather H's rows at the edges' sources, scale them by norm and
  scatter-add them at the edges' targets. Here that chain is written once over an arbitrary H (`agg1`, `agg2`), with
  every H-free stage taken as the reference's own stage function, so that the reference's sum is `agg` of the
  reference's product by unfolding three definitions. The kernel hands the normaliser to its combine as a column
  [100000, 1] and the bias as a row [1, C] (two reshapes): `dcol`, `brow1`, `brow2`.
-/
import proofs.«177061_j71674414235956_1_alg».proof.Proof.Gen.ReferenceIdeal.Read
import proofs.«177061_j71674414235956_1_alg».proof.Proof.Spec
import proofs.«177061_j71674414235956_1_alg».proof.Proof.Gen.KernelIdeal

noncomputable section

namespace Cert.Bridge

open Cert.ReferenceIdeal Cert.ReferenceIdeal.Read Idealize.ShloMosaic

/-- The first layer's neighbours' sum over a product `H`: rows of `H` gathered at the sources, scaled by the edge
    weights, scatter-added at the targets. -/
def agg1 (H : (⟨S100000x64, .f32⟩ : BufTy).Contents (Elt Ideal)) (x1 : (⟨S2x3200000, .i32⟩ : BufTy).Contents (Elt Ideal))
    (x2 : (⟨S3200000, .f32⟩ : BufTy).Contents (Elt Ideal)) : (⟨S100000x64, .f32⟩ : BufTy).Contents (Elt Ideal) :=
  Host.scatterAdd (F := Ideal) (φ := .f32) scatter_S100000x64_S3200000x1_S3200000x64_1_0_0_1 (val_main_v41 (F := Ideal)) (val_main_v42 (F := Ideal) x1)
    (mulf (F := Ideal) (φ := .f32) (val_main_v39 (F := Ideal) x1 x2) (Host.gather gather_S100000x64_S3200000x1_S3200000x64_1_0_n_n_0_1_164 H (val_main_v37 (F := Ideal) x1)))

/-- The reference's first sum is `agg1` of its first product. -/
theorem agg1_ref (x0 : (⟨S100000x128, .f32⟩ : BufTy).Contents (Elt Ideal)) (x1 : (⟨S2x3200000, .i32⟩ : BufTy).Contents (Elt Ideal))
    (x2 : (⟨S3200000, .f32⟩ : BufTy).Contents (Elt Ideal)) (x3 : (⟨S128x64, .f32⟩ : BufTy).Contents (Elt Ideal)) :
    val_main_v43 (F := Ideal) x0 x1 x2 x3 = agg1 (val_main_v4 (F := Ideal) x0 x3) x1 x2 := rfl

/-- The second layer's neighbours' sum over a product `H`. -/
def agg2 (H : (⟨S100000x32, .f32⟩ : BufTy).Contents (Elt Ideal)) (x1 : (⟨S2x3200000, .i32⟩ : BufTy).Contents (Elt Ideal))
    (x2 : (⟨S3200000, .f32⟩ : BufTy).Contents (Elt Ideal)) : (⟨S100000x32, .f32⟩ : BufTy).Contents (Elt Ideal) :=
  Host.scatterAdd (F := Ideal) (φ := .f32) scatter_S100000x32_S3200000x1_S3200000x32_1_0_0_1 (val_main_v90 (F := Ideal)) (val_main_v91 (F := Ideal) x1)
    (mulf (F := Ideal) (φ := .f32) (val_main_v88 (F := Ideal) x1 x2) (Host.gather gather_S100000x32_S3200000x1_S3200000x32_1_0_n_n_0_1_132 H (val_main_v86 (F := Ideal) x1)))

/-- The reference's second sum is `agg2` of its second product. -/
theorem agg2_ref (x0 : (⟨S100000x128, .f32⟩ : BufTy).Contents (Elt Ideal)) (x1 : (⟨S2x3200000, .i32⟩ : BufTy).Contents (Elt Ideal))
    (x2 : (⟨S3200000, .f32⟩ : BufTy).Contents (Elt Ideal)) (x3 : (⟨S128x64, .f32⟩ : BufTy).Contents (Elt Ideal))
    (x4 : (⟨S64, .f32⟩ : BufTy).Contents (Elt Ideal)) (x5 : (⟨S64x32, .f32⟩ : BufTy).Contents (Elt Ideal)) :
    val_main_v92 (F := Ideal) x0 x1 x2 x3 x4 x5 = agg2 (val_main_v53 (F := Ideal) x0 x1 x2 x3 x4 x5) x1 x2 := rfl

/-- The degree normaliser as a column. -/
def dcol (x1 : (⟨S2x3200000, .i32⟩ : BufTy).Contents (Elt Ideal)) (x2 : (⟨S3200000, .f32⟩ : BufTy).Contents (Elt Ideal)) :
    (⟨Cert.KernelIdeal.S100000x1, .f32⟩ : BufTy).Contents (Elt Ideal) :=
  shapeCast Cert.KernelIdeal.S100000x1 (val_main_v14 (F := Ideal) x1 x2) Cert.KernelIdeal.Gen.shapeCasts_S100000_S100000x1

/-- The first layer's bias as a row. -/
def brow1 (x4 : (⟨S64, .f32⟩ : BufTy).Contents (Elt Ideal)) : (⟨Cert.KernelIdeal.S1x64, .f32⟩ : BufTy).Contents (Elt Ideal) :=
  shapeCast Cert.KernelIdeal.S1x64 x4 Cert.KernelIdeal.Gen.shapeCasts_S64_S1x64

/-- The second layer's bias as a row. -/
def brow2 (x6 : (⟨S32, .f32⟩ : BufTy).Contents (Elt Ideal)) : (⟨Cert.KernelIdeal.S1x32, .f32⟩ : BufTy).Contents (Elt Ideal) :=
  shapeCast Cert.KernelIdeal.S1x32 x6 Cert.KernelIdeal.Gen.shapeCasts_S32_S1x32

end Cert.Bridge

end
-- ==== Proof.Region0.lean ====
/-
  The first dense layer, h = x · W, as the pipeline leaves it: twenty row blocks of 5000, each the product of the
  block of x with the whole of W, written back to rows 5000·t … 5000·t + 4999 of the result. Read at an index, the
  block's entry (r, j) is the sum over k of x (5000·t + r, k) · W (k, j): the change of float format before the
  product is the identity over the extended reals, and the product into a zero accumulator is the plain sum. The
  blocks tile the result, so the array ends holding the whole product `Gcn.dense1` of the arrays the region found.
-/
import proofs.«177061_j71674414235956_1_alg».proof.Proof.Gen.KernelIdeal.Frame
import proofs.«177061_j71674414235956_1_alg».proof.Proof.Spec
import Idealize.ShloMosaic.Lib.Pipeline.Value
import Idealize.ShloMosaic.Lib.ValueIdx
import Idealize.ShloMosaic.PureOps.Ideal.Laws

noncomputable section

namespace Cert.KernelIdeal.Dense1

open Cert.KernelIdeal Cert.KernelIdeal.Gen Cert.KernelIdeal.Gcn Idealize.ShloMosaic Idealize.ShloMosaic.TcCoe Idealize.SL.Sem
open Idealize.ShloMosaic.Pipeline (Dat)

/-! ## The block product at an index -/

theorem lhs_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (r, k) of a block of x, for entry (r, j) of the block product. -/
abbrev xBlk (j : S5000x64.Idx) (k : Fin 128) : S5000x128.Idx := fun a => match a with
  | ⟨0, _⟩ => ⟨(j 0).val, (j 0).isLt⟩
  | ⟨1, _⟩ => ⟨k.val, k.isLt⟩
/-- Entry (k, j) of W. -/
abbrev wBlk (j : S5000x64.Idx) (k : Fin 128) : S128x64.Idx := fun a => match a with
  | ⟨0, _⟩ => ⟨k.val, k.isLt⟩
  | ⟨1, _⟩ => ⟨(j 1).val, (j 1).isLt⟩

/-- The body's stored value at (r, j): the sum over k of the x block at (r, k) times W at (k, j). -/
theorem pay_apply (x0 : Vec Ideal S5000x128 .f32) (x1 : Vec Ideal S128x64 .f32) (j : S5000x64.Idx) :
    k0_pay1 (F := Ideal) x0 x1 j = ∑ k : Fin 128, x0 (xBlk j k) * x1 (wBlk j k) := by
  unfold k0_pay1
  refine (Ideal.matmul_constant_zero_apply dot_S5000x128_S128x64_S5000x64_1_0_0_1_n_n none _ _ j).trans ?_
  rw [ ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = xBlk j k := funext fun a => Fin.ext (by
    match a with
    | ⟨0, _⟩ => exact lhs_0 _ _
    | ⟨1, _⟩ => exact (lhs_1 _ _).trans hk)
  have er : dot_S5000x128_S128x64_S5000x64_1_0_0_1_n_n.rhsIdx j ((ValueIdx.contrEquiv1 dot_S5000x128_S128x64_S5000x64_1_0_0_1_n_n 128 rfl rfl).symm k) = wBlk j k := funext fun a => Fin.ext (by
    match a with
    | ⟨0, _⟩ => exact (rhs_0 _ _).trans hk
    | ⟨1, _⟩ => exact rhs_1 _ _)
  rw [el, er]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: x and the result move down the rows with t, W stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t = ((cfg0.win 2).blk t).view.read (Elt Ideal) (dense1 (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  funext j
  refine (pay_apply (iblk0 V c 0 t) (iblk0 V c 1 t) j).trans ?_
  show _ = dense1 (V c main_arg0) (V c main_arg3) (((cfg0.win 2).blk t).view.emb j)
  unfold dense1
  refine Finset.sum_congr rfl fun k _ => ?_
  have hx : iblk0 V c 0 t (xBlk j k) = V c main_arg0 (xAt1 (((cfg0.win 2).blk t).view.emb j) k) := by
    show V c main_arg0 (((cfg0.win 0).blk t).view.emb (xBlk j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (wBlk j k) = V c main_arg3 (wAt1 (((cfg0.win 2).blk t).view.emb j) k) := by
    show V c main_arg3 (((cfg0.win 1).blk t).view.emb (wBlk j k)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [hx, hw]

/-- An index of the result is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Row r lies in the block of point r / 5000: the blocks tile the result. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region: the whole product of the arrays the region found. -/
theorem out_eq (c : Dev nD) : (dat0 V c).arrAt 2 cfg0.N = dense1 (V c main_arg0) (V c main_arg3) :=
  (dat0 V c).arrAt_eq_of_cover 2 (dense1 (V c main_arg0) (V c main_arg3)) (fun t _ => flushed_eq V c t) (cover)

end Cert.KernelIdeal.Dense1

end
-- ==== Proof.Region1.lean ====
/-
  The first layer's combine, out = max((agg + (d · d) · h) + b, 0), as the pipeline leaves it: twenty row blocks of
  5000. At each point the body holds rows 5000·t … 5000·t + 4999 of agg and of h (64 columns each), the same rows of
  the normaliser column d (one column), and the whole bias row b (64 entries). Entry (r, j) of what it stores reads agg
  and h at (r, j), d at (r, 0) — squared, the column spread across the 64 columns — and b at (0, j), the row spread
  down the 5000 rows; the changes of shape to the same shape are the identity. The block is written back to the same
  rows of the result, so entry (i, j) of the array reads agg and h at (i, j), d at (i, 0) and b at (0, j): the array
  ends holding the whole-array function `Gcn.combine1` of the arrays the region found.
-/
import proofs.«177061_j71674414235956_1_alg».proof.Proof.Gen.KernelIdeal.Frame
import proofs.«177061_j71674414235956_1_alg».proof.Proof.Spec
import Idealize.ShloMosaic.Lib.Pipeline.Value
import Idealize.ShloMosaic.Lib.ValueIdx
import Idealize.ShloMosaic.PureOps.Ideal.Laws

noncomputable section

namespace Cert.KernelIdeal.Combine1

open Cert.KernelIdeal Cert.KernelIdeal.Gen Cert.KernelIdeal.Gcn Idealize.ShloMosaic Idealize.ShloMosaic.TcCoe Idealize.SL.Sem
open Idealize.ShloMosaic.Pipeline (Dat)

/-! ## The block's combine at an index -/

/-- Row r of a block of the normaliser column, for entry (r, j) of the block. -/
abbrev dBlk (j : S5000x64.Idx) : S5000x1.Idx := fun a => match a with
  | ⟨0, _⟩ => ⟨(j 0).val, (j 0).isLt⟩
  | ⟨1, _⟩ => ⟨0, Nat.one_pos⟩
/-- Column j of the bias row, for entry (r, j) of the block. -/
abbrev bBlk (j : S5000x64.Idx) : S1x64.Idx := fun a => match a with
  | ⟨0, _⟩ => ⟨0, Nat.one_pos⟩
  | ⟨1, _⟩ => ⟨(j 1).val, (j 1).isLt⟩

/-- A column of 5000 spread over 64 columns reads, at (r, j), the column's row r. -/
theorem bcast_col {α : Type} (v : S5000x1.Idx → α) (h : S5000x1.Broadcasts S5000x64) (j : S5000x64.Idx) :
    broadcastTo S5000x64 v h j = v (dBlk j) := by
  refine broadcastTo_apply v h j (dBlk j) fun ax => ?_
  match ax with
  | ⟨0, _⟩ => rfl
  | ⟨1, _⟩ => rfl

/-- A row of 64 spread over 5000 rows reads, at (r, j), the row's column j. -/
theorem bcast_row {α : Type} (v : S1x64.Idx → α) (h : S1x64.Broadcasts S5000x64) (j : S5000x64.Idx) :
    broadcastTo S5000x64 v h j = v (bBlk j) := by
  refine broadcastTo_apply v h j (bBlk j) fun ax => ?_
  match ax with
  | ⟨0, _⟩ => rfl
  | ⟨1, _⟩ => rfl

/-- The body's stored value at (r, j): the combine of the blocks' entries, the column's at (r, 0), the bias row's at (0, j). -/
theorem pay_apply (x_d : Vec Ideal S5000x1 .f32) (x_h x_agg : Vec Ideal S5000x64 .f32) (x_b : Vec Ideal S1x64 .f32) (j : S5000x64.Idx) :
    k1_pay1 (F := Ideal) x_d x_h x_agg x_b j =
      FloatOps.maximumf (F := Ideal) (φ := .f32)
      (FloatOps.addf (F := Ideal) (φ := .f32) (FloatOps.addf (F := Ideal) (φ := .f32) (x_agg j)
        (FloatOps.mulf (F := Ideal) (φ := .f32) (FloatOps.mulf (F := Ideal) (φ := .f32) (x_d (dBlk j)) (x_d (dBlk j))) (x_h j))) (x_b (bBlk j)))
      (FloatOps.ofBits (F := Ideal) .f32 0x00000000#32) := by
  unfold k1_pay1
  simp only [shapeCast_self]
  show FloatOps.maximumf (F := Ideal) (φ := .f32)
      (FloatOps.addf (F := Ideal) (φ := .f32) (FloatOps.addf (F := Ideal) (φ := .f32) (x_agg j)
        (FloatOps.mulf (F := Ideal) (φ := .f32) (broadcastTo S5000x64 (mulf x_d x_d) broadcasts_S5000x1_S5000x64 j) (x_h j))) (broadcastTo S5000x64 x_b broadcasts_S1x64_S5000x64 j))
      (FloatOps.ofBits (F := Ideal) .f32 0x00000000#32) = _
  rw [bcast_col, bcast_row]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the three tall windows and the result move down the rows with t, the bias row stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the whole combine. -/
theorem flushed_eq (c : Dev nD) (t : Fin cfg1.N) :
    (dat1 V c).flushed 4 t = ((cfg1.win 4).blk t).view.read (Elt Ideal) (combine1 (V c main_v43) (V c main_v30) (V c main_v44) (V c main_v45)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts t
  funext j
  refine (pay_apply (iblk1 V c 2 t) (iblk1 V c 1 t) (iblk1 V c 0 t) (iblk1 V c 3 t) j).trans ?_
  show _ = combine1 (V c main_v43) (V c main_v30) (V c main_v44) (V c main_v45) (((cfg1.win 4).blk t).view.emb j)
  unfold combine1
  have hagg : iblk1 V c 0 t j = V c main_v43 (((cfg1.win 4).blk t).view.emb j) := by
    show V c main_v43 (((cfg1.win 0).blk t).view.emb j) = _
    refine congrArg (V c main_v43) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * (j 1).val = win1_4.index t (1 : Fin 2) * 64 + 1 * (j 1).val; omega
  have hh : iblk1 V c 1 t j = V c main_v30 (((cfg1.win 4).blk t).view.emb j) := by
    show V c main_v30 (((cfg1.win 1).blk t).view.emb j) = _
    refine congrArg (V c main_v30) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 64 + 1 * (j 1).val = win1_4.index t (1 : Fin 2) * 64 + 1 * (j 1).val; omega
  have hd : iblk1 V c 2 t (dBlk j) = V c main_v44 (colAt1 (((cfg1.win 4).blk t).view.emb j)) := by
    show V c main_v44 (((cfg1.win 2).blk t).view.emb (dBlk j)) = _
    refine congrArg (V c main_v44) (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have hb : iblk1 V c 3 t (bBlk j) = V c main_v45 (biasAt1 (((cfg1.win 4).blk t).view.emb j)) := by
    show V c main_v45 (((cfg1.win 3).blk t).view.emb (bBlk j)) = _
    refine congrArg (V c main_v45) (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega
  rw [hagg, hh, hd, hb]

/-- An index of the result is in point t's block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v46).slice (win1_4.rect t)).set ↔ _
  rw [View.set_slice_whole, Rect.mem_set_unit]
  exact Iff.rfl

/-- Row r lies in the block of point r / 5000: the blocks tile the result. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1, e2, e3, e4, e5, e6, e7, e8, e9⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The result array after the region: the whole combine of the arrays the region found. -/
theorem out_eq (c : Dev nD) : (dat1 V c).arrAt 4 cfg1.N = combine1 (V c main_v43) (V c main_v30) (V c main_v44) (V c main_v45) :=
  (dat1 V c).arrAt_eq_of_cover 4 (combine1 (V c main_v43) (V c main_v30) (V c main_v44) (V c main_v45)) (fun t _ => flushed_eq V c t) (cover)

end Cert.KernelIdeal.Combine1

end
-- ==== Proof.Region2.lean ====
/-
  The second dense layer, h' = y · W', as the pipeline leaves it: twenty row blocks of 5000, each the product of the
  block of y (the first layer's output) with the whole of W', written back to rows 5000·t … 5000·t + 4999. At an
  index the block's entry (r, j) is the sum over k of y (5000·t + r, k) · W' (k, j): a cast to the same shape and the
  change of float format are the identity over the extended reals, and the product into a zero accumulator is the
  plain sum. The blocks tile the result, so the array ends holding the whole product `Gcn.dense2` of the arrays the
  region found.
-/
import proofs.«177061_j71674414235956_1_alg».proof.Proof.Gen.KernelIdeal.Frame
import proofs.«177061_j71674414235956_1_alg».proof.Proof.Spec
import Idealize.ShloMosaic.Lib.Pipeline.Value
import Idealize.ShloMosaic.Lib.ValueIdx
import Idealize.ShloMosaic.PureOps.Ideal.Laws

noncomputable section

namespace Cert.KernelIdeal.Dense2

open Cert.KernelIdeal Cert.KernelIdeal.Gen Cert.KernelIdeal.Gcn Idealize.ShloMosaic Idealize.ShloMosaic.TcCoe Idealize.SL.Sem
open Idealize.ShloMosaic.Pipeline (Dat)

/-! ## The block product at an index -/

theorem lhs_0 (j : S5000x32.Idx) (q : dot_S5000x64_S64x32_S5000x32_1_0_0_1_n_n.contr.Idx) :
    (dot_S5000x64_S64x32_S5000x32_1_0_0_1_n_n.lhsIdx j q 0).val = (j 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs_1 (j : S5000x32.Idx) (q : dot_S5000x64_S64x32_S5000x32_1_0_0_1_n_n.contr.Idx) :
    (dot_S5000x64_S64x32_S5000x32_1_0_0_1_n_n.lhsIdx j q 1).val = (q ⟨0, by decide⟩).val :=
  dot_S5000x64_S64x32_S5000x32_1_0_0_1_n_n.lhsIdx_val_of_single rfl j q
theorem rhs_0 (j : S5000x32.Idx) (q : dot_S5000x64_S64x32_S5000x32_1_0_0_1_n_n.contr.Idx) :
    (dot_S5000x64_S64x32_S5000x32_1_0_0_1_n_n.rhsIdx j q 0).val = (q ⟨0, by decide⟩).val :=
  dot_S5000x64_S64x32_S5000x32_1_0_0_1_n_n.rhsIdx_val_of_single rfl j q
theorem rhs_1 (j : S5000x32.Idx) (q : dot_S5000x64_S64x32_S5000x32_1_0_0_1_n_n.contr.Idx) :
    (dot_S5000x64_S64x32_S5000x32_1_0_0_1_n_n.rhsIdx j q 1).val = (j 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- Entry (r, k) of a block of y, for entry (r, j) of the block product. -/
abbrev yBlk (j : S5000x32.Idx) (k : Fin 64) : S5000x64.Idx := fun a => match a with
  | ⟨0, _⟩ => ⟨(j 0).val, (j 0).isLt⟩
  | ⟨1, _⟩ => ⟨k.val, k.isLt⟩
/-- Entry (k, j) of W'. -/
abbrev wBlk (j : S5000x32.Idx) (k : Fin 64) : S64x32.Idx := fun a => match a with
  | ⟨0, _⟩ => ⟨k.val, k.isLt⟩
  | ⟨1, _⟩ => ⟨(j 1).val, (j 1).isLt⟩

/-- The body's stored value at (r, j): the sum over k of the y block at (r, k) times W' at (k, j). -/
theorem pay_apply (x0 : Vec Ideal S5000x64 .f32) (x1 : Vec Ideal S64x32 .f32) (j : S5000x32.Idx) :
    k2_pay1 (F := Ideal) x0 x1 j = ∑ k : Fin 64, x0 (yBlk j k) * x1 (wBlk j k) := by
  unfold k2_pay1
  rw [shapeCast_self]
  refine (Ideal.matmul_constant_zero_apply dot_S5000x64_S64x32_S5000x32_1_0_0_1_n_n none _ _ j).trans ?_
  rw [← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx j ((ValueIdx.contrEquiv1 dot_S5000x64_S64x32_S5000x32_1_0_0_1_n_n 64 rfl rfl).symm k) = yBlk j k := funext fun a => Fin.ext (by
    match a with
    | ⟨0, _⟩ => exact lhs_0 _ _
    | ⟨1, _⟩ => exact (lhs_1 _ _).trans hk)
  have er : dot_S5000x64_S64x32_S5000x32_1_0_0_1_n_n.rhsIdx j ((ValueIdx.contrEquiv1 dot_S5000x64_S64x32_S5000x32_1_0_0_1_n_n 64 rfl rfl).symm k) = wBlk j k := funext fun a => Fin.ext (by
    match a with
    | ⟨0, _⟩ => exact (rhs_0 _ _).trans hk
    | ⟨1, _⟩ => exact rhs_1 _ _)
  rw [el, er]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: y and the result move down the rows with t, W' stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed_eq (c : Dev nD) (t : Fin cfg2.N) :
    (dat2 V c).flushed 2 t = ((cfg2.win 2).blk t).view.read (Elt Ideal) (dense2 (V c main_v46) (V c main_arg5)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x32) hz]
  obtain ⟨e0, e1, e2, e3, e4, e5⟩ := idx_facts t
  funext j
  refine (pay_apply (iblk2 V c 0 t) (iblk2 V c 1 t) j).trans ?_
  show _ = dense2 (V c main_v46) (V c main_arg5) (((cfg2.win 2).blk t).view.emb j)
  unfold dense2
  refine Finset.sum_congr rfl fun k _ => ?_
  have hx : iblk2 V c 0 t (yBlk j k) = V c main_v46 (xAt2 (((cfg2.win 2).blk t).view.emb j) k) := by
    show V c main_v46 (((cfg2.win 0).blk t).view.emb (yBlk j k)) = _
    refine congrArg (V c main_v46) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have hw : iblk2 V c 1 t (wBlk j k) = V c main_arg5 (wAt2 (((cfg2.win 2).blk t).view.emb j) k) := by
    show V c main_arg5 (((cfg2.win 1).blk t).view.emb (wBlk j k)) = _
    refine congrArg (V c main_arg5) (funext fun a => Fin.ext ?_)
    match a with
    | ⟨0, _⟩ => show win2_1.index t (0 : Fin 2) * 64 + 1 * k.val = k.val; omega
    | ⟨1, _⟩ => show win2_1.index t (1 : Fin 2) * 32 + 1 * (j 1).val = win2_2.index t (1 : Fin 2) * 32 + 1 * (j 1).val; omega
  rw [hx, hw]

/-- An index of the result is in point t's block iff each coordinate is in the block's range on its axis. -/
theorem mem_blk (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v47).slice (win2_2.rect t)).set ↔ _
  rw [View.set_slice_whole, Rect.mem_set_unit]
  exact Iff.rfl

/-- Row r lies in the block of point r / 5000: the blocks tile the result. -/
theorem cover (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 20 := N_2
  let t : Fin cfg2.N := ⟨(i 0).val / 5000, by rw [hN]; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- The result array after the region: the whole product of the arrays the region found. -/
theorem out_eq (c : Dev nD) : (dat2 V c).arrAt 2 cfg2.N = dense2 (V c main_v46) (V c main_arg5) :=
  (dat2 V c).arrAt_eq_of_cover 2 (dense2 (V c main_v46) (V c main_arg5)) (fun t _ => flushed_eq V c t) (cover)

end Cert.KernelIdeal.Dense2

end
-- ==== Proof.Region3.lean ====
/-
  The second layer's combine, out = (agg + (d · d) · h) + b, as the pipeline leaves it: twenty row blocks of 5000. At
  each point the body holds rows 5000·t … 5000·t + 4999 of agg and of h (32 columns each), the same rows of the
  normaliser column d (one column), and the whole bias row b (32 entries). Entry (r, j) of what it stores reads agg and
  h at (r, j), d at (r, 0) — squared, the column spread across the 32 columns — and b at (0, j), the row spread down
  the 5000 rows; the changes of shape to the same shape are the identity, and there is no maximum with zero here. The
  block is written back to the same rows of the result, so entry (i, j) of the array reads agg and h at (i, j), d at
  (i, 0) and b at (0, j): the array ends holding the whole-array function `Gcn.combine2` of the arrays the region found.
-/
import proofs.«177061_j71674414235956_1_alg».proof.Proof.Gen.KernelIdeal.Frame
import proofs.«177061_j71674414235956_1_alg».proof.Proof.Spec
import Idealize.ShloMosaic.Lib.Pipeline.Value
import Idealize.ShloMosaic.Lib.ValueIdx
import Idealize.ShloMosaic.PureOps.Ideal.Laws

noncomputable section

namespace Cert.KernelIdeal.Combine2

open Cert.KernelIdeal Cert.KernelIdeal.Gen Cert.KernelIdeal.Gcn Idealize.ShloMosaic Idealize.ShloMosaic.TcCoe Idealize.SL.Sem
open Idealize.ShloMosaic.Pipeline (Dat)

/-! ## The block's combine at an index -/

/-- Row r of a block of the normaliser column, for entry (r, j) of the block. -/
abbrev dBlk (j : S5000x32.Idx) : S5000x1.Idx := fun a => match a with
  | ⟨0, _⟩ => ⟨(j 0).val, (j 0).isLt⟩
  | ⟨1, _⟩ => ⟨0, Nat.one_pos⟩
/-- Column j of the bias row, for entry (r, j) of the block. -/
abbrev bBlk (j : S5000x32.Idx) : S1x32.Idx := fun a => match a with
  | ⟨0, _⟩ => ⟨0, Nat.one_pos⟩
  | ⟨1, _⟩ => ⟨(j 1).val, (j 1).isLt⟩

/-- A column of 5000 spread over 32 columns reads, at (r, j), the column's row r. -/
theorem bcast_col {α : Type} (v : S5000x1.Idx → α) (h : S5000x1.Broadcasts S5000x32) (j : S5000x32.Idx) :
    broadcastTo S5000x32 v h j = v (dBlk j) := by
  refine broadcastTo_apply v h j (dBlk j) fun ax => ?_
  match ax with
  | ⟨0, _⟩ => rfl
  | ⟨1, _⟩ => rfl

/-- A row of 32 spread over 5000 rows reads, at (r, j), the row's column j. -/
theorem bcast_row {α : Type} (v : S1x32.Idx → α) (h : S1x32.Broadcasts S5000x32) (j : S5000x32.Idx) :
    broadcastTo S5000x32 v h j = v (bBlk j) := by
  refine broadcastTo_apply v h j (bBlk j) fun ax => ?_
  match ax with
  | ⟨0, _⟩ => rfl
  | ⟨1, _⟩ => rfl

/-- The body's stored value at (r, j): the combine of the blocks' entries, the column's at (r, 0), the bias row's at (0, j). -/
theorem pay_apply (x_d : Vec Ideal S5000x1 .f32) (x_h x_agg : Vec Ideal S5000x32 .f32) (x_b : Vec Ideal S1x32 .f32) (j : S5000x32.Idx) :
    k3_pay1 (F := Ideal) x_d x_h x_agg x_b j =
      FloatOps.addf (F := Ideal) (φ := .f32) (FloatOps.addf (F := Ideal) (φ := .f32) (x_agg j)
        (FloatOps.mulf (F := Ideal) (φ := .f32) (FloatOps.mulf (F := Ideal) (φ := .f32) (x_d (dBlk j)) (x_d (dBlk j))) (x_h j))) (x_b (bBlk j)) := by
  unfold k3_pay1
  simp only [shapeCast_self]
  show FloatOps.addf (F := Ideal) (φ := .f32) (FloatOps.addf (F := Ideal) (φ := .f32) (x_agg j)
        (FloatOps.mulf (F := Ideal) (φ := .f32) (broadcastTo S5000x32 (mulf x_d x_d) broadcasts_S5000x1_S5000x32 j) (x_h j))) (broadcastTo S5000x32 x_b broadcasts_S1x32_S5000x32 j) = _
  rw [bcast_col, bcast_row]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the three tall windows and the result move down the rows with t, the bias row stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the whole combine. -/
theorem flushed_eq (c : Dev nD) (t : Fin cfg3.N) :
    (dat3 V c).flushed 4 t = ((cfg3.win 4).blk t).view.read (Elt Ideal) (combine2 (V c main_v60) (V c main_v47) (V c main_v61) (V c main_v62)) := by
  show (cfg3.win 4).cut (grid3.coords t) ((dat3 V c).after 4 t) = _
  rw [after3_4]
  unfold out3_4
  rw [View.canon_unit_zero hz]
  simp only [View.ld_unit_zero (S := S5000x32) hz, View.ld_unit_zero (S := S5000x1) hz, View.ld_unit_zero (S := S1x32) hz]
  obtain ⟨e0, e1, e2, e3, e4, e5, e6, e7, e8, e9⟩ := idx_facts t
  funext j
  refine (pay_apply (iblk3 V c 2 t) (iblk3 V c 1 t) (iblk3 V c 0 t) (iblk3 V c 3 t) j).trans ?_
  show _ = combine2 (V c main_v60) (V c main_v47) (V c main_v61) (V c main_v62) (((cfg3.win 4).blk t).view.emb j)
  unfold combine2
  have hagg : iblk3 V c 0 t j = V c main_v60 (((cfg3.win 4).blk t).view.emb j) := by
    show V c main_v60 (((cfg3.win 0).blk t).view.emb j) = _
    refine congrArg (V c main_v60) (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 32 + 1 * (j 1).val = win3_4.index t (1 : Fin 2) * 32 + 1 * (j 1).val; omega
  have hh : iblk3 V c 1 t j = V c main_v47 (((cfg3.win 4).blk t).view.emb j) := by
    show V c main_v47 (((cfg3.win 1).blk t).view.emb j) = _
    refine congrArg (V c main_v47) (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 32 + 1 * (j 1).val = win3_4.index t (1 : Fin 2) * 32 + 1 * (j 1).val; omega
  have hd : iblk3 V c 2 t (dBlk j) = V c main_v61 (colAt2 (((cfg3.win 4).blk t).view.emb j)) := by
    show V c main_v61 (((cfg3.win 2).blk t).view.emb (dBlk j)) = _
    refine congrArg (V c main_v61) (funext fun a => Fin.ext ?_)
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have hb : iblk3 V c 3 t (bBlk j) = V c main_v62 (biasAt2 (((cfg3.win 4).blk t).view.emb j)) := by
    show V c main_v62 (((cfg3.win 3).blk t).view.emb (bBlk j)) = _
    refine congrArg (V c main_v62) (funext fun a => Fin.ext ?_)
    match a with
    | ⟨0, _⟩ => show win3_3.index t (0 : Fin 2) * 1 + 1 * 0 = 0; omega
    | ⟨1, _⟩ => show win3_3.index t (1 : Fin 2) * 32 + 1 * (j 1).val = win3_4.index t (1 : Fin 2) * 32 + 1 * (j 1).val; omega
  rw [hagg, hh, hd, hb]

/-- An index of the result is in point t's block iff each coordinate is in the block's range on its axis. -/
theorem mem_blk (t : Fin cfg3.N) (i : S100000x32.Idx) :
    i ∈ ((cfg3.win 4).blk t).view.set ↔ ∀ a : Fin 2, win3_4.index t a * S5000x32.size a ≤ (i a).val ∧ (i a).val < win3_4.index t a * S5000x32.size a + S5000x32.size a := by
  show i ∈ ((View.whole main_v63).slice (win3_4.rect t)).set ↔ _
  rw [View.set_slice_whole, Rect.mem_set_unit]
  exact Iff.rfl

/-- Row r lies in the block of point r / 5000: the blocks tile the result. -/
theorem cover (i : S100000x32.Idx) : ∃ t : Fin cfg3.N, (cfg3.win 4).flush t = true ∧ i ∈ ((cfg3.win 4).blk t).view.set := by
  have hi0 : (i 0).val < 100000 := (i 0).isLt
  have hi1 : (i 1).val < 32 := (i 1).isLt
  have hN : cfg3.N = 20 := N_3
  let t : Fin cfg3.N := ⟨(i 0).val / 5000, by rw [hN]; omega⟩
  obtain ⟨e0, e1, e2, e3, e4, e5, e6, e7, e8, e9⟩ := idx_facts t
  have ht : t.val = (i 0).val / 5000 := rfl
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 32 ≤ (i 1).val ∧ (i 1).val < win3_4.index t (1 : Fin 2) * 32 + 32; omega

/-- The result array after the region: the whole combine of the arrays the region found. -/
theorem out_eq (c : Dev nD) : (dat3 V c).arrAt 4 cfg3.N = combine2 (V c main_v60) (V c main_v47) (V c main_v61) (V c main_v62) :=
  (dat3 V c).arrAt_eq_of_cover 4 (combine2 (V c main_v60) (V c main_v47) (V c main_v61) (V c main_v62)) (fun t _ => flushed_eq V c t) (cover)

end Cert.KernelIdeal.Combine2

end
-- ==== Proof.RefSide.lean ====
/-
  The reference's two layers are the kernel's layer functions at the reference's own intermediate values.

  Each layer of the graph convolution is  out = (agg + (d · d) · h) + b  with  h = x · W, the first followed by
  max(·, 0). The reference writes this with whole-array operations: the product h as a contraction whose entry (i, j)
  is the sum over k of x (i, k) · W (k, j); the normaliser d, a vector over the rows, squared, made a column and
  repeated along each row; the bias b, a vector over the columns, made a row and repeated down each column; then the
  entrywise product, the two entrywise sums and the entrywise maximum with the zero array. The layer functions read,
  for entry (i, j), the normaliser column at (i, 0) and the bias row at (0, j), those being reshapes of the same two
  vectors. Entry by entry the two sides are the same operations of the same operands in the same order and grouping;
  what is to be checked is only that every read lands on the same entry: a vector of length a reshaped to a column
  [a, 1] has at (i, 0) the vector's entry i, and reshaped to a row [1, a] has at (0, j) its entry j, and a repeat along
  an axis reads the operand at the other coordinates. The second layer's normaliser is computed a second time by the
  reference, by the same operations of the edge list and the edge attributes, hence is the same vector.
-/
import proofs.«177061_j71674414235956_1_alg».proof.Proof.Bridge

noncomputable section

namespace Cert.Bridge

open Cert.ReferenceIdeal Cert.ReferenceIdeal.Read Idealize.ShloMosaic

variable (x0 : (⟨S100000x128, .f32⟩ : BufTy).Contents (Elt Ideal)) (x1 : (⟨S2x3200000, .i32⟩ : BufTy).Contents (Elt Ideal))
  (x2 : (⟨S3200000, .f32⟩ : BufTy).Contents (Elt Ideal)) (x3 : (⟨S128x64, .f32⟩ : BufTy).Contents (Elt Ideal))
  (x4 : (⟨S64, .f32⟩ : BufTy).Contents (Elt Ideal)) (x5 : (⟨S64x32, .f32⟩ : BufTy).Contents (Elt Ideal))
  (x6 : (⟨S32, .f32⟩ : BufTy).Contents (Elt Ideal))

/-! ## A vector as a column and as a row -/

/-- The normaliser column at (r, 0) is the normaliser vector at r: row-major position r · 1 + 0 = r. -/
theorem dcol_at (j : Cert.KernelIdeal.S100000x1.Idx) (k : S100000.Idx) (hk : (k 0).val = (j 0).val) :
    dcol x1 x2 j = val_main_v14 (F := Ideal) x1 x2 k := by
  unfold dcol
  exact shapeCast_apply _ Cert.KernelIdeal.Gen.shapeCasts_S100000_S100000x1 j k (by
    rw [Shape.rowMajor_val_two, Shape.rowMajor_val_one]
    have h1 : (j 1).val < 1 := (j 1).isLt
    show (k 0).val = (j 0).val * 1 + (j 1).val
    omega)

/-- The first layer's bias row at (0, c) is the bias vector at c: row-major position 0 · 64 + c = c. -/
theorem brow1_at (j : Cert.KernelIdeal.S1x64.Idx) (k : S64.Idx) (hk : (k 0).val = (j 1).val) :
    brow1 x4 j = x4 k := by
  unfold brow1
  exact shapeCast_apply _ Cert.KernelIdeal.Gen.shapeCasts_S64_S1x64 j k (by
    rw [Shape.rowMajor_val_two, Shape.rowMajor_val_one]
    have h0 : (j 0).val < 1 := (j 0).isLt
    show (k 0).val = (j 0).val * 64 + (j 1).val
    omega)

/-- The second layer's bias row at (0, c) is the bias vector at c: row-major position 0 · 32 + c = c. -/
theorem brow2_at (j : Cert.KernelIdeal.S1x32.Idx) (k : S32.Idx) (hk : (k 0).val = (j 1).val) :
    brow2 x6 j = x6 k := by
  unfold brow2
  exact shapeCast_apply _ Cert.KernelIdeal.Gen.shapeCasts_S32_S1x32 j k (by
    rw [Shape.rowMajor_val_two, Shape.rowMajor_val_one]
    have h0 : (j 0).val < 1 := (j 0).isLt
    show (k 0).val = (j 0).val * 32 + (j 1).val
    omega)

/-! ## The first layer -/

/-- The first product: entry (i, j) of either side is the sum over k of x (i, k) · W (k, j). -/
theorem layer1_dense : Cert.KernelIdeal.Gcn.dense1 x0 x3 = val_main_v4 (F := Ideal) x0 x3 := by
  funext i
  rw [val_main_v4_apply]
  rfl

/-- The first layer's result: entry (i, j) of either side is max((agg (i, j) + (d i · d i) · h (i, j)) + b j, 0). -/
theorem layer1_out :
    Cert.KernelIdeal.Gcn.combine1 (agg1 (val_main_v4 (F := Ideal) x0 x3) x1 x2) (val_main_v4 (F := Ideal) x0 x3) (dcol x1 x2) (brow1 x4)
      = val_main_v52 (F := Ideal) x0 x1 x2 x3 x4 := by
  funext i
  rw [val_main_v52_apply, val_main_v51_apply, val_main_v48_apply, val_main_v47_apply, val_main_v46_apply,
    val_main_v45_apply, val_main_v44_apply, val_main_v50_apply, val_main_v49_apply, val_main_call1_v0_apply,
    val_main_call1_cst_apply, agg1_ref]
  unfold Cert.KernelIdeal.Gcn.combine1
  rw [dcol_at x1 x2 (Cert.KernelIdeal.Gcn.colAt1 i) (idx_main_v45 (idx_main_v46 i)) rfl,
    brow1_at x4 (Cert.KernelIdeal.Gcn.biasAt1 i) (idx_main_v49 (idx_main_v50 i)) rfl]

/-! ## The second layer -/

/-- The second product, of the first layer's result and the second weights. -/
theorem layer2_dense :
    Cert.KernelIdeal.Gcn.dense2 (val_main_v52 (F := Ideal) x0 x1 x2 x3 x4) x5 = val_main_v53 (F := Ideal) x0 x1 x2 x3 x4 x5 := by
  funext i
  rw [val_main_v53_apply]
  rfl

/-- The normaliser the reference computes for the second layer is the first layer's: the same operations of the edge
    list and the edge attributes. -/
theorem norm2_eq : val_main_v63 (F := Ideal) x1 x2 = val_main_v14 (F := Ideal) x1 x2 := rfl

/-- The second layer's result: entry (i, j) of either side is (agg (i, j) + (d i · d i) · h (i, j)) + b j. -/
theorem layer2_out :
    Cert.KernelIdeal.Gcn.combine2 (agg2 (val_main_v53 (F := Ideal) x0 x1 x2 x3 x4 x5) x1 x2) (val_main_v53 (F := Ideal) x0 x1 x2 x3 x4 x5)
      (dcol x1 x2) (brow2 x6) = val_main_v100 (F := Ideal) x0 x1 x2 x3 x4 x5 x6 := by
  funext i
  rw [val_main_v100_apply, val_main_v97_apply, val_main_v96_apply, val_main_v95_apply, val_main_v94_apply,
    val_main_v93_apply, val_main_v99_apply, val_main_v98_apply, agg2_ref, norm2_eq]
  unfold Cert.KernelIdeal.Gcn.combine2
  rw [dcol_at x1 x2 (Cert.KernelIdeal.Gcn.colAt2 i) (idx_main_v94 (idx_main_v95 i)) rfl,
    brow2_at x6 (Cert.KernelIdeal.Gcn.biasAt2 i) (idx_main_v98 (idx_main_v99 i)) rfl]

end Cert.Bridge

end
-- ==== Proof.KernelChain.lean ====
/-
  The kernel's result, read off its run.

  The run's last boundary holds the result array as a fold: three stretches of host operations, the first dense
  region's write-backs, a host stretch, the first combine region's and the second dense region's write-backs, a host
  stretch, and the second combine region's write-backs, from the launch memory. Read from the start: the host computes,
  from the edge list and the edge attributes, the sources, the targets, the degree normaliser and the edge weights — the
  same operations the reference applies, so each is the reference's own stage function of the arguments; no region
  writes them, so every later boundary still holds them. Each region's output array is its whole-array function of what
  it found (the four region modules); each host stretch between regions gathers the product's rows at the sources,
  scales them by the edge weights and scatter-adds them at the targets (`agg1`, `agg2`), and reshapes the normaliser to
  a column and the bias to a row. Composed, the result is the second layer's combine of the second layer's sum and
  product, over the first layer's; and by the reference-side lemmas that is the reference's result function of the
  arguments.
-/
import proofs.«177061_j71674414235956_1_alg».proof.Proof.Gen.KernelIdeal.Frame
import proofs.«177061_j71674414235956_1_alg».proof.Proof.Spec
import proofs.«177061_j71674414235956_1_alg».proof.Proof.Bridge
import proofs.«177061_j71674414235956_1_alg».proof.Proof.Region0
import proofs.«177061_j71674414235956_1_alg».proof.Proof.Region1
import proofs.«177061_j71674414235956_1_alg».proof.Proof.Region2
import proofs.«177061_j71674414235956_1_alg».proof.Proof.Region3
import proofs.«177061_j71674414235956_1_alg».proof.Proof.RefSide
import Idealize.ShloMosaic.Lib.StableHlo.Run

set_option maxRecDepth 16384

noncomputable section

namespace Cert.KernelIdeal.Chain

open Cert.KernelIdeal Cert.KernelIdeal.Gen Cert.KernelIdeal.Gcn Idealize.ShloMosaic Idealize.ShloMosaic.TcCoe Idealize.SL.Sem Idealize.ShloMosaic.StableHlo
open Cert.ReferenceIdeal.Read Cert.Bridge

variable (m : (ℓ : Loc nD τ sig) → Buf (Elt Ideal) ℓ) (ρ : Dev nD → PrngReg)

/-! ## The arguments, by name -/

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)

/-! ## What the first region finds: the host values computed before it -/

theorem W3_v1 (c : Dev nD) : W3 m ρ c (Proc.devRef .tc main_v1) = val_main_v1 (F := Ideal) (a1 m c) := by
  show StableHlo.after hostOps0_2 (StableHlo.after hostOps0_1 (StableHlo.after hostOps0 (W0 m ρ c))) (Proc.devRef .tc main_v1) = _
  after_results_simp
  rfl
theorem W3_v3 (c : Dev nD) : W3 m ρ c (Proc.devRef .tc main_v3) = val_main_v3 (F := Ideal) (a1 m c) := by
  show StableHlo.after hostOps0_2 (StableHlo.after hostOps0_1 (StableHlo.after hostOps0 (W0 m ρ c))) (Proc.devRef .tc main_v3) = _
  after_results_simp
  rfl

/-- After the first stretch: the degree's comparison with zero, -/
theorem W1_v10 (c : Dev nD) : W1 m ρ c (Proc.devRef .tc main_v10) = val_main_v11 (F := Ideal) (a1 m c) (a2 m c) := by
  show StableHlo.after hostOps0 (W0 m ρ c) (Proc.devRef .tc main_v10) = _
  after_results_simp
  rfl
/-- its power, -/
theorem W1_v12 (c : Dev nD) : W1 m ρ c (Proc.devRef .tc main_v12) = val_main_v13 (F := Ideal) (a1 m c) (a2 m c) := by
  show StableHlo.after hostOps0 (W0 m ρ c) (Proc.devRef .tc main_v12) = _
  after_results_simp
  rfl
/-- and the zero the selection falls back to. -/
theorem W1_cst3 (c : Dev nD) : W1 m ρ c (Proc.devRef .tc main_cst_3) = val_main_cst_3 (F := Ideal) := by
  show StableHlo.after hostOps0 (W0 m ρ c) (Proc.devRef .tc main_cst_3) = _
  after_results_simp
  rfl

/-- The selection stretch over any contents: the normaliser is the power where the degree is positive, zero elsewhere. -/
theorem where_stage (Vv : Valuation τ sig (Elt Ideal)) :
    StableHlo.after hostOps0_1 Vv (Proc.devRef .tc main_v13)
      = select (Vv (Proc.devRef .tc main_v10)) (Vv (Proc.devRef .tc main_v12))
          (broadcastInDim S100000 ![] bcast_S_S100000 (id (Vv (Proc.devRef .tc main_cst_3)))) := by
  after_results_simp
  rfl
/-- The degree normaliser, selected: as the second stretch leaves it. -/
theorem W2_v13 (c : Dev nD) : W2 m ρ c (Proc.devRef .tc main_v13) = val_main_v14 (F := Ideal) (a1 m c) (a2 m c) := by
  show StableHlo.after hostOps0_1 (W1 m ρ c) (Proc.devRef .tc main_v13) = _
  rw [where_stage, W1_v10, W1_v12, W1_cst3]
  rfl
theorem W2_v1 (c : Dev nD) : W2 m ρ c (Proc.devRef .tc main_v1) = val_main_v1 (F := Ideal) (a1 m c) := by
  show StableHlo.after hostOps0_1 (StableHlo.after hostOps0 (W0 m ρ c)) (Proc.devRef .tc main_v1) = _
  after_results_simp
  rfl
theorem W2_v3 (c : Dev nD) : W2 m ρ c (Proc.devRef .tc main_v3) = val_main_v3 (F := Ideal) (a1 m c) := by
  show StableHlo.after hostOps0_1 (StableHlo.after hostOps0 (W0 m ρ c)) (Proc.devRef .tc main_v3) = _
  after_results_simp
  rfl
theorem W2_arg2 (c : Dev nD) : W2 m ρ c (Proc.devRef .tc main_arg2) = a2 m c := by
  show StableHlo.after hostOps0_1 (StableHlo.after hostOps0 (W0 m ρ c)) (Proc.devRef .tc main_arg2) = _
  after_results_simp

theorem W3_v13 (c : Dev nD) : W3 m ρ c (Proc.devRef .tc main_v13) = val_main_v14 (F := Ideal) (a1 m c) (a2 m c) := by
  have h := W2_v13 m ρ c
  show StableHlo.after hostOps0_2 (W2 m ρ c) (Proc.devRef .tc main_v13) = _
  generalize W2 m ρ c = Vv at h ⊢
  after_results_simp
  exact h
/-- The edge weights: the normaliser at the target, times the attribute, times the normaliser at the source. -/
theorem W3_v29 (c : Dev nD) : W3 m ρ c (Proc.devRef .tc main_v29) = val_main_v30 (F := Ideal) (a1 m c) (a2 m c) := by
  have h13 := W2_v13 m ρ c
  have h3 := W2_v3 m ρ c
  have h1 := W2_v1 m ρ c
  have h2 := W2_arg2 m ρ c
  show StableHlo.after hostOps0_2 (W2 m ρ c) (Proc.devRef .tc main_v29) = _
  generalize W2 m ρ c = Vv at h13 h3 h1 h2 ⊢
  after_results_simp
  rw [h13, h3, h1, h2]
  rfl
/-- The reference computes the edge weights a second time for the second layer, by the same operations. -/
theorem norm_again (x1 : (⟨Cert.ReferenceIdeal.S2x3200000, .i32⟩ : BufTy).Contents (Elt Ideal)) (x2 : (⟨Cert.ReferenceIdeal.S3200000, .f32⟩ : BufTy).Contents (Elt Ideal)) :
    val_main_v30 (F := Ideal) x1 x2 = val_main_v79 (F := Ideal) x1 x2 := rfl
theorem W3_v29' (c : Dev nD) : W3 m ρ c (Proc.devRef .tc main_v29) = val_main_v79 (F := Ideal) (a1 m c) (a2 m c) :=
  (W3_v29 m ρ c).trans (norm_again (a1 m c) (a2 m c))
theorem W3_arg (c : Dev nD) (b : Ref sig .tc) (hb : b = main_arg0 ∨ b = main_arg3 ∨ b = main_arg4 ∨ b = main_arg5 ∨ b = main_arg6) :
    W3 m ρ c (Proc.devRef .tc b) = m ((c : Thread nD τ).loc b) := by
  rcases hb with rfl | rfl | rfl | rfl | rfl <;>
  · show StableHlo.after hostOps0_2 (StableHlo.after hostOps0_1 (StableHlo.after hostOps0 (W0 m ρ c))) (Proc.devRef .tc _) = _
    after_results_simp

/-! ## Across the first dense region -/

/-- The first product, as the second stretch of host operations finds it. -/
theorem W4_v30 (c : Dev nD) : W4 m ρ c (Proc.devRef .tc main_v30) = dense1 (a0 m c) (a3 m c) := by
  refine (W4_arr m ρ c 2).trans ((Dense1.out_eq (V3 m ρ) c).trans ?_)
  show dense1 (W3 m ρ c (Proc.devRef .tc main_arg0)) (W3 m ρ c (Proc.devRef .tc main_arg3)) = _
  rw [W3_arg m ρ c main_arg0 (Or.inl rfl), W3_arg m ρ c main_arg3 (Or.inr (Or.inl rfl))]
theorem W4_v1 (c : Dev nD) : W4 m ρ c (Proc.devRef .tc main_v1) = val_main_v1 (F := Ideal) (a1 m c) :=
  (W4_of_ne m ρ c main_v1 (by decide)).trans (W3_v1 m ρ c)
theorem W4_v3 (c : Dev nD) : W4 m ρ c (Proc.devRef .tc main_v3) = val_main_v3 (F := Ideal) (a1 m c) :=
  (W4_of_ne m ρ c main_v3 (by decide)).trans (W3_v3 m ρ c)
theorem W4_v13 (c : Dev nD) : W4 m ρ c (Proc.devRef .tc main_v13) = val_main_v14 (F := Ideal) (a1 m c) (a2 m c) :=
  (W4_of_ne m ρ c main_v13 (by decide)).trans (W3_v13 m ρ c)
theorem W4_v29 (c : Dev nD) : W4 m ρ c (Proc.devRef .tc main_v29) = val_main_v30 (F := Ideal) (a1 m c) (a2 m c) :=
  (W4_of_ne m ρ c main_v29 (by decide)).trans (W3_v29 m ρ c)
theorem W4_v29' (c : Dev nD) : W4 m ρ c (Proc.devRef .tc main_v29) = val_main_v79 (F := Ideal) (a1 m c) (a2 m c) :=
  (W4_of_ne m ρ c main_v29 (by decide)).trans (W3_v29' m ρ c)
theorem W4_arg4 (c : Dev nD) : W4 m ρ c (Proc.devRef .tc main_arg4) = a4 m c :=
  (W4_of_ne m ρ c main_arg4 (by decide)).trans (W3_arg m ρ c main_arg4 (Or.inr (Or.inr (Or.inl rfl))))
theorem W4_arg5 (c : Dev nD) : W4 m ρ c (Proc.devRef .tc main_arg5) = a5 m c :=
  (W4_of_ne m ρ c main_arg5 (by decide)).trans (W3_arg m ρ c main_arg5 (Or.inr (Or.inr (Or.inr (Or.inl rfl)))))
theorem W4_arg6 (c : Dev nD) : W4 m ρ c (Proc.devRef .tc main_arg6) = a6 m c :=
  (W4_of_ne m ρ c main_arg6 (by decide)).trans (W3_arg m ρ c main_arg6 (Or.inr (Or.inr (Or.inr (Or.inr rfl)))))

/-! ## What the first combine region finds -/

/-- The first layer's dense product and everything it is a function of. -/
abbrev h1 (c : Dev nD) := dense1 (a0 m c) (a3 m c)

theorem W5_v43 (c : Dev nD) : W5 m ρ c (Proc.devRef .tc main_v43) = agg1 (h1 m c) (a1 m c) (a2 m c) := by
  show StableHlo.after hostOps1 (W4 m ρ c) (Proc.devRef .tc main_v43) = _
  after_results_simp
  rw [W4_v3, W4_v29, W4_v30, W4_v1]
  simp only [agg1, val_main_v31, val_main_c_7, val_main_v32, val_main_v33, val_main_c_8, val_main_v34, val_main_v35, val_main_v36, val_main_v37, val_main_v39, val_main_cst_9, val_main_v41, val_main_v42]
  rfl
theorem W5_v30 (c : Dev nD) : W5 m ρ c (Proc.devRef .tc main_v30) = h1 m c := by
  show StableHlo.after hostOps1 (W4 m ρ c) (Proc.devRef .tc main_v30) = _
  after_results_simp
  exact W4_v30 m ρ c
theorem W5_v44 (c : Dev nD) : W5 m ρ c (Proc.devRef .tc main_v44) = dcol (a1 m c) (a2 m c) := by
  show StableHlo.after hostOps1 (W4 m ρ c) (Proc.devRef .tc main_v44) = _
  after_results_simp
  rw [W4_v13]
  rfl
theorem W5_v45 (c : Dev nD) : W5 m ρ c (Proc.devRef .tc main_v45) = brow1 (a4 m c) := by
  show StableHlo.after hostOps1 (W4 m ρ c) (Proc.devRef .tc main_v45) = _
  after_results_simp
  rw [W4_arg4]
  rfl
theorem W5_v1 (c : Dev nD) : W5 m ρ c (Proc.devRef .tc main_v1) = val_main_v1 (F := Ideal) (a1 m c) := by
  show StableHlo.after hostOps1 (W4 m ρ c) (Proc.devRef .tc main_v1) = _
  after_results_simp
  exact W4_v1 m ρ c
theorem W5_v3 (c : Dev nD) : W5 m ρ c (Proc.devRef .tc main_v3) = val_main_v3 (F := Ideal) (a1 m c) := by
  show StableHlo.after hostOps1 (W4 m ρ c) (Proc.devRef .tc main_v3) = _
  after_results_simp
  exact W4_v3 m ρ c
theorem W5_v13 (c : Dev nD) : W5 m ρ c (Proc.devRef .tc main_v13) = val_main_v14 (F := Ideal) (a1 m c) (a2 m c) := by
  show StableHlo.after hostOps1 (W4 m ρ c) (Proc.devRef .tc main_v13) = _
  after_results_simp
  exact W4_v13 m ρ c
theorem W5_v29' (c : Dev nD) : W5 m ρ c (Proc.devRef .tc main_v29) = val_main_v79 (F := Ideal) (a1 m c) (a2 m c) := by
  show StableHlo.after hostOps1 (W4 m ρ c) (Proc.devRef .tc main_v29) = _
  after_results_simp
  exact W4_v29' m ρ c
theorem W5_arg5 (c : Dev nD) : W5 m ρ c (Proc.devRef .tc main_arg5) = a5 m c := by
  show StableHlo.after hostOps1 (W4 m ρ c) (Proc.devRef .tc main_arg5) = _
  after_results_simp
  exact W4_arg5 m ρ c
theorem W5_arg6 (c : Dev nD) : W5 m ρ c (Proc.devRef .tc main_arg6) = a6 m c := by
  show StableHlo.after hostOps1 (W4 m ρ c) (Proc.devRef .tc main_arg6) = _
  after_results_simp
  exact W4_arg6 m ρ c

/-! ## Across the first combine region and the second dense region -/

/-- The first layer's result. -/
abbrev o1 (c : Dev nD) := combine1 (agg1 (h1 m c) (a1 m c) (a2 m c)) (h1 m c) (dcol (a1 m c) (a2 m c)) (brow1 (a4 m c))

theorem W6_v46 (c : Dev nD) : W6 m ρ c (Proc.devRef .tc main_v46) = o1 m c := by
  refine (W6_arr m ρ c 4).trans ((Combine1.out_eq (V5 m ρ) c).trans ?_)
  show combine1 (W5 m ρ c (Proc.devRef .tc main_v43)) (W5 m ρ c (Proc.devRef .tc main_v30)) (W5 m ρ c (Proc.devRef .tc main_v44)) (W5 m ρ c (Proc.devRef .tc main_v45)) = _
  rw [W5_v43, W5_v30, W5_v44, W5_v45]

/-- The second layer's dense product. -/
abbrev h2 (c : Dev nD) := dense2 (o1 m c) (a5 m c)

theorem W7_v47 (c : Dev nD) : W7 m ρ c (Proc.devRef .tc main_v47) = h2 m c := by
  refine (W7_arr m ρ c 2).trans ((Dense2.out_eq (V6 m ρ) c).trans ?_)
  show dense2 (W6 m ρ c (Proc.devRef .tc main_v46)) (W6 m ρ c (Proc.devRef .tc main_arg5)) = _
  rw [W6_v46, (W6_of_ne m ρ c main_arg5 (by decide)).trans (W5_arg5 m ρ c)]
theorem W7_v1 (c : Dev nD) : W7 m ρ c (Proc.devRef .tc main_v1) = val_main_v1 (F := Ideal) (a1 m c) :=
  (W7_of_ne m ρ c main_v1 (by decide)).trans ((W6_of_ne m ρ c main_v1 (by decide)).trans (W5_v1 m ρ c))
theorem W7_v3 (c : Dev nD) : W7 m ρ c (Proc.devRef .tc main_v3) = val_main_v3 (F := Ideal) (a1 m c) :=
  (W7_of_ne m ρ c main_v3 (by decide)).trans ((W6_of_ne m ρ c main_v3 (by decide)).trans (W5_v3 m ρ c))
theorem W7_v13 (c : Dev nD) : W7 m ρ c (Proc.devRef .tc main_v13) = val_main_v14 (F := Ideal) (a1 m c) (a2 m c) :=
  (W7_of_ne m ρ c main_v13 (by decide)).trans ((W6_of_ne m ρ c main_v13 (by decide)).trans (W5_v13 m ρ c))
theorem W7_v29' (c : Dev nD) : W7 m ρ c (Proc.devRef .tc main_v29) = val_main_v79 (F := Ideal) (a1 m c) (a2 m c) :=
  (W7_of_ne m ρ c main_v29 (by decide)).trans ((W6_of_ne m ρ c main_v29 (by decide)).trans (W5_v29' m ρ c))
theorem W7_arg6 (c : Dev nD) : W7 m ρ c (Proc.devRef .tc main_arg6) = a6 m c :=
  (W7_of_ne m ρ c main_arg6 (by decide)).trans ((W6_of_ne m ρ c main_arg6 (by decide)).trans (W5_arg6 m ρ c))

/-! ## What the second combine region finds, and what it leaves -/

theorem W8_v60 (c : Dev nD) : W8 m ρ c (Proc.devRef .tc main_v60) = agg2 (h2 m c) (a1 m c) (a2 m c) := by
  show StableHlo.after hostOps3 (W7 m ρ c) (Proc.devRef .tc main_v60) = _
  after_results_simp
  rw [W7_v3, W7_v29', W7_v47, W7_v1]
  simp only [agg2, val_main_v80, val_main_c_19, val_main_v81, val_main_v82, val_main_c_20, val_main_v83, val_main_v84, val_main_v85, val_main_v86, val_main_v88, val_main_cst_21, val_main_v90, val_main_v91]
  rfl
theorem W8_v47 (c : Dev nD) : W8 m ρ c (Proc.devRef .tc main_v47) = h2 m c := by
  show StableHlo.after hostOps3 (W7 m ρ c) (Proc.devRef .tc main_v47) = _
  after_results_simp
  exact W7_v47 m ρ c
theorem W8_v61 (c : Dev nD) : W8 m ρ c (Proc.devRef .tc main_v61) = dcol (a1 m c) (a2 m c) := by
  show StableHlo.after hostOps3 (W7 m ρ c) (Proc.devRef .tc main_v61) = _
  after_results_simp
  rw [W7_v13]
  rfl
theorem W8_v62 (c : Dev nD) : W8 m ρ c (Proc.devRef .tc main_v62) = brow2 (a6 m c) := by
  show StableHlo.after hostOps3 (W7 m ρ c) (Proc.devRef .tc main_v62) = _
  after_results_simp
  rw [W7_arg6]
  rfl

/-- The result array at the run's last boundary: the second layer's combine, over the first layer's result. -/
theorem result (c : Dev nD) : W9 m ρ c (Proc.devRef .tc main_v63)
    = combine2 (agg2 (h2 m c) (a1 m c) (a2 m c)) (h2 m c) (dcol (a1 m c) (a2 m c)) (brow2 (a6 m c)) := by
  refine (W9_arr m ρ c 4).trans ((Combine2.out_eq (V8 m ρ) c).trans ?_)
  show combine2 (W8 m ρ c (Proc.devRef .tc main_v60)) (W8 m ρ c (Proc.devRef .tc main_v47)) (W8 m ρ c (Proc.devRef .tc main_v61)) (W8 m ρ c (Proc.devRef .tc main_v62)) = _
  rw [W8_v60, W8_v47, W8_v61, W8_v62]

/-- The same as the reference's result function of the arguments. -/
theorem result_ref (c : Dev nD) : W9 m ρ c (Proc.devRef .tc main_v63)
    = val_main_v100 (F := Ideal) (a0 m c) (a1 m c) (a2 m c) (a3 m c) (a4 m c) (a5 m c) (a6 m c) := by
  rw [result m ρ c]
  show combine2 (agg2 (dense2 (combine1 (agg1 (dense1 (a0 m c) (a3 m c)) (a1 m c) (a2 m c)) (dense1 (a0 m c) (a3 m c)) (dcol (a1 m c) (a2 m c)) (brow1 (a4 m c))) (a5 m c)) (a1 m c) (a2 m c))
      (dense2 (combine1 (agg1 (dense1 (a0 m c) (a3 m c)) (a1 m c) (a2 m c)) (dense1 (a0 m c) (a3 m c)) (dcol (a1 m c) (a2 m c)) (brow1 (a4 m c))) (a5 m c))
      (dcol (a1 m c) (a2 m c)) (brow2 (a6 m c)) = _
  rw [layer1_dense, layer1_out, layer2_dense, layer2_out]

end Cert.KernelIdeal.Chain

end
-- ==== Proof.lean ====
/-
  A two-layer graph convolution — per layer  out = agg + (dinv · dinv) · h + b  with  h = x · W  and agg the
  neighbours' weighted sum, the first layer followed by max(·, 0) — as four pipelined kernels (the two dense products
  and the two combines, each over twenty row blocks of 5000) among host operations, against the same function written
  with whole-array operations.

  Over the extended reals the two programs are the same function of the seven arguments. The host parts agree
  operation for operation: sources, targets, degree normaliser, edge weights, and per layer the gather of the
  product's rows, their scaling and the scatter-add; the reference computes the normaliser and the weights once per
  layer, the kernel once, by the same operations. A dense product computed block by block — each block the product of
  5000 rows with the whole weight matrix, into a zero accumulator, the change of float format the identity — is the
  whole product, entry (i, j) the sum over k of x (i, k) · W (k, j) on both sides. A combine computed block by block
  reads, for entry (i, j), agg and h at (i, j), the normaliser at row i and the bias at column j, as the reference's
  broadcasts do; the operations, their order and their grouping are the same, so no law of arithmetic is used and the
  finiteness of the inputs is never opened.

  The kernel's run is the generated frame's launch with the result array named (Proof/KernelRun.lean); what that array
  holds is read through the run's boundaries in Proof/KernelChain.lean, over the four regions' value lemmas
  (Proof/Region0.lean … Region3.lean) and the reference-side lemmas (Proof/RefSide.lean); the reference's run and its
  stage functions are the generated Run and Read modules. The idealization rewrote no operation, so `preserves` is
  trivial; the kernel's frames are the generated ones, the reference's frame its run with the result dropped.
-/
import proofs.«177061_j71674414235956_1_alg».proof.Defs
import proofs.«177061_j71674414235956_1_alg».proof.Proof.Gen.Kernel
import proofs.«177061_j71674414235956_1_alg».proof.Proof.Gen.Kernel.Skeleton
import proofs.«177061_j71674414235956_1_alg».proof.Proof.Gen.Kernel.Launch
import proofs.«177061_j71674414235956_1_alg».proof.Proof.Gen.Kernel.Points
import proofs.«177061_j71674414235956_1_alg».proof.Proof.Gen.Kernel.Frame
import proofs.«177061_j71674414235956_1_alg».proof.Proof.Gen.KernelIdeal
import proofs.«177061_j71674414235956_1_alg».proof.Proof.Gen.KernelIdeal.Skeleton
import proofs.«177061_j71674414235956_1_alg».proof.Proof.Gen.KernelIdeal.Launch
import proofs.«177061_j71674414235956_1_alg».proof.Proof.Gen.KernelIdeal.Points
import proofs.«177061_j71674414235956_1_alg».proof.Proof.Gen.KernelIdeal.Frame
import proofs.«177061_j71674414235956_1_alg».proof.Proof.Gen.ReferenceIdeal
import proofs.«177061_j71674414235956_1_alg».proof.Proof.Gen.ReferenceIdeal.Run
import proofs.«177061_j71674414235956_1_alg».proof.Proof.Gen.ReferenceIdeal.Read
import proofs.«177061_j71674414235956_1_alg».proof.Proof.Gen.Pre_finite_inputs
import proofs.«177061_j71674414235956_1_alg».proof.Proof.KernelRun
import proofs.«177061_j71674414235956_1_alg».proof.Proof.KernelChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the reference's result function of the arguments, which agree. -/
theorem algebraic : Cert.algebraic_KernelIdeal_ReferenceIdeal := by
  intro m ρ m' ρ' _ hagree
  refine ⟨fun c => Cert.KernelIdeal.Gen.W9 m ρ c (Proc.devRef .tc Cert.KernelIdeal.main_v63),
    Cert.KernelIdeal.RunNamed.run (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v100 m' c = Cert.KernelIdeal.Gen.W9 m ρ c (Proc.devRef .tc Cert.KernelIdeal.main_v63)
  rw [Cert.ReferenceIdeal.Read.val_main_v100_eq, Cert.KernelIdeal.Chain.result_ref m ρ c]
  obtain ⟨e0, e1, e2, e3, e4, e5, e6⟩ := hagree c
  rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
